-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x288x256 : Shape := ⟨3, ![64, 288, 256]⟩
abbrev S3072x3072 : Shape := ⟨2, ![3072, 3072]⟩
abbrev S3072 : Shape := ⟨1, ![3072]⟩
abbrev S_ : Shape := ⟨0, ![]⟩

class Facts : Prop where
  bcast_S_S64x288x256 : S_.BroadcastsInDim S64x288x256 (![] : Fin 0 → Fin S64x288x256.rank)
  reducesTo_S64x288x256_S_d0_1_2 : S64x288x256.ReducesTo [0, 1, 2] S_
  h_S_ : 0 < S_.numel
  bcast_S_S3072x3072 : S_.BroadcastsInDim S3072x3072 (![] : Fin 0 → Fin S3072x3072.rank)
  reducesTo_S3072x3072_S_d0_1 : S3072x3072.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S64x288x256 .f32) (main_arg1 : FVec F S3072x3072 .f32) (main_arg2 : FVec F S3072 .f32) : IVec S_ 1 :=
  let main_v0 : FVec F S64x288x256 .f32 := Host.absf main_arg0
  let main_cst : FVec F S_ .f32 := constant S_ .f32 0x7F800000#32
  let main_v1 : FVec F S64x288x256 .f32 := broadcastInDim S64x288x256 ![] bcast_S_S64x288x256 main_cst
  let main_v2 : IVec S64x288x256 1 := cmpf .olt main_v0 main_v1
  let main_c : IVec S_ 1 := constantI S_ 1 1#1
  let main_v3 : IVec S_ 1 := (fun x v => Host.reduce IntOp.andi x v reducesTo_S64x288x256_S_d0_1_2 h_S_) main_v2 main_c
  let main_v4 : FVec F S3072x3072 .f32 := Host.absf main_arg1
  let main_cst_0 : FVec F S_ .f32 := constant S_ .f32 0x7F800000#32
  let main_v5 : FVec F S3072x3072 .f32 := broadcastInDim S3072x3072 ![] bcast_S_S3072x3072 main_cst_0
  let main_v6 : IVec S3072x3072 1 := cmpf .olt main_v4 main_v5
  let main_c_1 : IVec S_ 1 := constantI S_ 1 1#1
  let main_v7 : IVec S_ 1 := (fun x v => Host.reduce IntOp.andi x v reducesTo_S3072x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S64x288x256 : Shape := ⟨3, ![64, 288, 256]⟩
abbrev S3072x3072 : Shape := ⟨2, ![3072, 3072]⟩
abbrev S3072 : Shape := ⟨1, ![3072]⟩
abbrev S1x3072 : Shape := ⟨2, ![1, 3072]⟩
abbrev S64x276x3072 : Shape := ⟨3, ![64, 276, 3072]⟩
abbrev S2x288x256 : Shape := ⟨3, ![2, 288, 256]⟩
abbrev S2x276x3072 : Shape := ⟨3, ![2, 276, 3072]⟩
abbrev S1x1x3072 : Shape := ⟨3, ![1, 1, 3072]⟩
abbrev S2x276x256 : Shape := ⟨3, ![2, 276, 256]⟩
abbrev S552x256 : Shape := ⟨2, ![552, 256]⟩
abbrev S3072x256 : Shape := ⟨2, ![3072, 256]⟩
abbrev S552x3072 : Shape := ⟨2, ![552, 3072]⟩
abbrev S64x276x12x256 : Shape := ⟨4, ![64, 276, 12, 256]⟩

abbrev nBuf : Space → Nat
  | .hbm => 8
  | .vmem => 6
  | .smem => 0
  | _ => 0

abbrev bufTy : (tb : Table) → Fin (tcTables nBuf tb) → BufTy
  | .hbm, ⟨0, _⟩ => ⟨S64x288x256, .f32⟩
  | .hbm, ⟨1, _⟩ => ⟨S3072x3072, .f32⟩
  | .hbm, ⟨2, _⟩ => ⟨S3072, .f32⟩
  | .hbm, ⟨3, _⟩ => ⟨S64x288x256, .bf16⟩
  | .hbm, ⟨4, _⟩ => ⟨S3072x3072, .bf16⟩
  | .hbm, ⟨5, _⟩ => ⟨S1x3072, .f32⟩
  | .hbm, ⟨6, _⟩ => ⟨S64x276x3072, .f32⟩
  | .hbm, ⟨7, _⟩ => ⟨S64x276x12x256, .f32⟩
  | .local _ .vmem, ⟨0, _⟩ => ⟨S2x288x256, .bf16⟩
  | .local _ .vmem, ⟨1, _⟩ => ⟨S2x288x256, .bf16⟩
  | .local _ .vmem, ⟨2, _⟩ => ⟨S3072x3072, .bf16⟩
  | .local _ .vmem, ⟨3, _⟩ => ⟨S1x3072, .f32⟩
  | .local _ .vmem, ⟨4, _⟩ => ⟨S2x276x3072, .f32⟩
  | .local _ .vmem, ⟨5, _⟩ => ⟨S2x276x3072, .f32⟩
  | _, _ => ⟨S64x288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x288x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x276x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S3072_S1x3072 : S3072.ShapeCasts S1x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  shapeCasts_S1x3072_S1x1x3072 : S1x3072.ShapeCasts S1x1x3072
  shapeCasts_S1x1x3072_S1x1x3072 : S1x1x3072.ShapeCasts S1x1x3072
  broadcasts_S1x1x3072_S2x276x3072 : S1x1x3072.Broadcasts S2x276x3072
  inb_S2x276x3072_S2x276x3072_0_0_0 : ∀ a, (![0, 0, 0] : Fin 3 → Nat) a + S2x276x3072.size a ≤ S2x276x3072.size a
  h_S2x276x3072 : 0 < S2x276x3072.numel
  inb_S2x288x256_S2x276x256_0_0_0 : ∀ a, (![0, 0, 0] : Fin 3 → Nat) a + S2x276x256.size a ≤ S2x288x256.size a
  h_S2x276x256 : 0 < S2x276x256.numel
  shapeCasts_S2x276x256_S2x276x256 : S2x276x256.ShapeCasts S2x276x256
  shapeCasts_S2x276x256_S552x256 : S2x276x256.ShapeCasts S552x256
  inb_S3072x3072_S3072x256_0_0 : ∀ a, (![0, 0] : Fin 2 → Nat) a + S3072x256.size a ≤ S3072x3072.size a
  h_S3072x256 : 0 < S3072x256.numel
  shapeCasts_S3072x256_S3072x256 : S3072x256.ShapeCasts S3072x256
  shapeCasts_S2x276x3072_S2x276x3072 : S2x276x3072.ShapeCasts S2x276x3072
  shapeCasts_S552x3072_S2x276x3072 : S552x3072.ShapeCasts S2x276x3072
  inb_S2x288x256_S2x276x256_0_1_0 : ∀ a, (![0, 1, 0] : Fin 3 → Nat) a + S2x276x256.size a ≤ S2x288x256.size a
  inb_S3072x3072_S3072x256_0_256 : ∀ a, (![0, 256] : Fin 2 → Nat) a + S3072x256.size a ≤ S3072x3072.size a
  inb_S2x288x256_S2x276x256_0_2_0 : ∀ a, (![0, 2, 0] : Fin 3 → Nat) a + S2x276x256.size a ≤ S2x288x256.size a
  inb_S3072x3072_S3072x256_0_512 : ∀ a, (![0, 512] : Fin 2 → Nat) a + S3072x256.size a ≤ S3072x3072.size a
  inb_S2x288x256_S2x276x256_0_3_0 : ∀ a, (![0, 3, 0] : Fin 3 → Nat) a + S2x276x256.size a ≤ S2x288x256.size a
  inb_S3072x3072_S3072x256_0_768 : ∀ a, (![0, 768] : Fin 2 → Nat) a + S3072x256.size a ≤ S3072x3072.size a
  inb_S2x288x256_S2x276x256_0_4_0 : ∀ a, (![0, 4, 0] : Fin 3 → Nat) a + S2x276x256.size a ≤ S2x288x256.size a
  inb_S3072x3072_S3072x256_0_1024 : ∀ a, (![0, 1024] : Fin 2 → Nat) a + S3072x256.size a ≤ S3072x3072.size a
  inb_S2x288x256_S2x276x256_0_5_0 : ∀ a, (![0, 5, 0] : Fin 3 → Nat) a + S2x276x256.size a ≤ S2x288x256.size a
  inb_S3072x3072_S3072x256_0_1280 : ∀ a, (![0, 1280] : Fin 2 → Nat) a + S3072x256.size a ≤ S3072x3072.size a
  inb_S2x288x256_S2x276x256_0_6_0 : ∀ a, (![0, 6, 0] : Fin 3 → Nat) a + S2x276x256.size a ≤ S2x288x256.size a
  inb_S3072x3072_S3072x256_0_1536 : ∀ a, (![0, 1536] : Fin 2 → Nat) a + S3072x256.size a ≤ S3072x3072.size a
  inb_S2x288x256_S2x276x256_0_7_0 : ∀ a, (![0, 7, 0] : Fin 3 → Nat) a + S2x276x256.size a ≤ S2x288x256.size a
  inb_S3072x3072_S3072x256_0_1792 : ∀ a, (![0, 1792] : Fin 2 → Nat) a + S3072x256.size a ≤ S3072x3072.size a
  inb_S2x288x256_S2x276x256_0_8_0 : ∀ a, (![0, 8, 0] : Fin 3 → Nat) a + S2x276x256.size a ≤ S2x288x256.size a
  inb_S3072x3072_S3072x256_0_2048 : ∀ a, (![0, 2048] : Fin 2 → Nat) a + S3072x256.size a ≤ S3072x3072.size a
  inb_S2x288x256_S2x276x256_0_9_0 : ∀ a, (![0, 9, 0] : Fin 3 → Nat) a + S2x276x256.size a ≤ S2x288x256.size a
  inb_S3072x3072_S3072x256_0_2304 : ∀ a, (![0, 2304] : Fin 2 → Nat) a + S3072x256.size a ≤ S3072x3072.size a
  inb_S2x288x256_S2x276x256_0_10_0 : ∀ a, (![0, 10, 0] : Fin 3 → Nat) a + S2x276x256.size a ≤ S2x288x256.size a
  inb_S3072x3072_S3072x256_0_2560 : ∀ a, (![0, 2560] : Fin 2 → Nat) a + S3072x256.size a ≤ S3072x3072.size a
  inb_S2x288x256_S2x276x256_0_11_0 : ∀ a, (![0, 11, 0] : Fin 3 → Nat) a + S2x276x256.size a ≤ S2x288x256.size a
  inb_S3072x3072_S3072x256_0_2816 : ∀ a, (![0, 2816] : Fin 2 → Nat) a + S3072x256.size a ≤ S3072x3072.size a
  shapeCasts_S64x276x3072_S64x276x12x256 : S64x276x3072.ShapeCasts S64x276x12x256
  dot_S552x256_S3072x256_S552x3072_1_1_0_0_n_n_wf : DotDims.WF S552x256 S3072x256 S552x3072 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x288x256.size a ≤ S64x288x256.size a
  hwx0_0 : ∀ i : grid0.Coords, EltTy.bits .bf16 = 32 ∨ (Rect.block (s := S64x288x256) S2x288x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x3072.size a ≤ S3072x3072.size a
  hwx0_1 : ∀ i : grid0.Coords, EltTy.bits .bf16 = 32 ∨ (Rect.block (s := S3072x3072) S3072x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x276x3072.size a ≤ S64x276x3072.size a
  hwx0_3 : ∀ i : grid0.Coords, EltTy.bits .f32 = 32 ∨ (Rect.block (s := S64x276x3072) S2x276x3072.size (cc0_transform_3 i) (hinb0_3 i)).WholeWords (EltTy.packing .f32)

variable [Facts₀]

def dot_S552x256_S3072x256_S552x3072_1_1_0_0_n_n : DotDims S552x256 S3072x256 S552x3072 where
  lhsContracting := [1]
  rhsContracting := [1]
  lhsNonContracting := [0]
  rhsNonContracting := [0]
  lhsBatch := []
  rhsBatch := []
  wf := dot_S552x256_S3072x256_S552x3072_1_1_0_0_n_n_wf

abbrev win0_0 : Pipeline.Window sig grid0 :=
  Pipeline.Window.ofSpec (Memref.whole main_v0) S2x288x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x276x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x288x256 : Shape := ⟨3, ![64, 288, 256]⟩
abbrev S3072x3072 : Shape := ⟨2, ![3072, 3072]⟩
abbrev S3072 : Shape := ⟨1, ![3072]⟩
abbrev S276 : Shape := ⟨1, ![276]⟩
abbrev S276x1 : Shape := ⟨2, ![276, 1]⟩
abbrev S12 : Shape := ⟨1, ![12]⟩
abbrev S1x12 : Shape := ⟨2, ![1, 12]⟩
abbrev S276x12 : Shape := ⟨2, ![276, 12]⟩
abbrev S_ : Shape := ⟨0, ![]⟩
abbrev S276x12x1 : Shape := ⟨3, ![276, 12, 1]⟩
abbrev S64x276x12x256 : Shape := ⟨4, ![64, 276, 12, 256]⟩
abbrev S64x276x3072 : Shape := ⟨3, ![64, 276, 3072]⟩
abbrev S1x1x3072 : Shape := ⟨3, ![1, 1, 3072]⟩

abbrev nBuf : Space → Nat
  | .hbm => 25
  | .vmem => 0
  | .smem => 0
  | _ => 0

abbrev bufTy : (tb : Table) → Fin (tcTables nBuf tb) → BufTy
  | .hbm, ⟨0, _⟩ => ⟨S64x288x256, .f32⟩
  | .hbm, ⟨1, _⟩ => ⟨S3072x3072, .f32⟩
  | .hbm, ⟨2, _⟩ => ⟨S3072, .f32⟩
  | .hbm, ⟨3, _⟩ => ⟨S276, .i32⟩
  | .hbm, ⟨4, _⟩ => ⟨S276x1, .i32⟩
  | .hbm, ⟨5, _⟩ => ⟨S12, .i32⟩
  | .hbm, ⟨6, _⟩ => ⟨S1x12, .i32⟩
  | .hbm, ⟨7, _⟩ => ⟨S276x12, .i32⟩
  | .hbm, ⟨8, _⟩ => ⟨S276x12, .i32⟩
  | .hbm, ⟨9, _⟩ => ⟨S276x12, .i32⟩
  | .hbm, ⟨10, _⟩ => ⟨S_, .i32⟩
  | .hbm, ⟨11, _⟩ => ⟨S276x12, .i32⟩
  | .hbm, ⟨12, _⟩ => ⟨S276x12, .i1⟩
  | .hbm, ⟨13, _⟩ => ⟨S_, .i32⟩
  | .hbm, ⟨14, _⟩ => ⟨S276x12, .i32⟩
  | .hbm, ⟨15, _⟩ => ⟨S276x12, .i32⟩
  | .hbm, ⟨16, _⟩ => ⟨S276x12, .i32⟩
  | .hbm, ⟨17, _⟩ => ⟨S276x12x1, .i32⟩
  | .hbm, ⟨18, _⟩ => ⟨S64x276x12x256, .f32⟩
  | .hbm, ⟨19, _⟩ => ⟨S64x276x3072, .f32⟩
  | .hbm, ⟨20, _⟩ => ⟨S64x276x3072, .f32⟩
  | .hbm, ⟨21, _⟩ => ⟨S1x1x3072, .f32⟩
  | .hbm, ⟨22, _⟩ => ⟨S64x276x3072, .f32⟩
  | .hbm, ⟨23, _⟩ => ⟨S64x276x3072, .f32⟩
  | .hbm, ⟨24, _⟩ => ⟨S64x276x12x256, .f32⟩
  | _, _ => ⟨S64x288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  bcast_S276_S276x1_0 : S276.BroadcastsInDim S276x1 (![0] : Fin 1 → Fin S276x1.rank)
  bcast_S12_S1x12_1 : S12.BroadcastsInDim S1x12 (![1] : Fin 1 → Fin S1x12.rank)
  bcast_S276x1_S276x12_0_1 : S276x1.BroadcastsInDim S276x12 (![0, 1] : Fin 2 → Fin S276x12.rank)
  bcast_S1x12_S276x12_0_1 : S1x12.BroadcastsInDim S276x12 (![0, 1] : Fin 2 → Fin S276x12.rank)
  bcast_S_S276x12 : S_.BroadcastsInDim S276x12 (![] : Fin 0 → Fin S276x12.rank)
  bcast_S276x12_S276x12x1_0_1 : S276x12.BroadcastsInDim S276x12x1 (![0, 1] : Fin 2 → Fin S276x12x1.rank)
  shapeCasts_S64x276x12x256_S64x276x3072 : S64x276x12x256.ShapeCasts S64x276x3072
  bcast_S3072_S1x1x3072_2 : S3072.BroadcastsInDim S1x1x3072 (![2] : Fin 1 → Fin S1x1x3072.rank)
  bcast_S1x1x3072_S64x276x3072_0_1_2 : S1x1x3072.BroadcastsInDim S64x276x3072 (![0, 1, 2] : Fin 3 → Fin S64x276x3072.rank)
  shapeCasts_S64x276x3072_S64x276x12x256 : S64x276x3072.ShapeCasts S64x276x12x256
  gather_S64x288x256_S276x12x1_S64x276x12x256_03_1_n_n_1_2_641256_wf : GatherDims.WF S64x288x256 S276x12x1 S64x276x12x256 [0, 3] [1] [] [1] [] 2 ![64, 1, 256]
  dot_S64x276x3072_S3072x3072_S64x276x3072_2_1_01_0_n_n_wf : DotDims.WF S64x276x3072 S3072x3072 S64x276x3072 [2] [1] [0, 1] [0] [] []

variable [Facts₀]

def gather_S64x288x256_S276x12x1_S64x276x12x256_03_1_n_n_1_2_641256 : GatherDims S64x288x256 S276x12x1 S64x276x12x256 where
  offsetDims := [0, 3]
  collapsedSliceDims := [1]
  operandBatchingDims := []
  startIndicesBatchingDims := []
  startIndexMap := [1]
  indexVectorDim := 2
  sliceSizes := ![64, 1, 256]
  wf := gather_S64x288x256_S276x12x1_S64x276x12x256_03_1_n_n_1_2_641256_wf
def dot_S64x276x3072_S3072x3072_S64x276x3072_2_1_01_0_n_n : DotDims S64x276x3072 S3072x3072 S64x276x3072 where
  lhsContracting := [2]
  rhsContracting := [1]
  lhsNonContracting := [0, 1]
  rhsNonContracting := [0]
  lhsBatch := []
  rhsBatch := []
  wf := dot_S64x276x3072_S3072x3072_S64x276x3072_2_1_01_0_n_n_wf

class Facts : Prop extends Facts₀ where

variable [Facts]
-- ==== Proof.Step.lean ====
/-
  One accumulate step of the kernel body, read at an index, at the ideal values.

  Every accumulate step of the body is the same function of three vectors: a slice `xs` of the input block
  (two batch rows × 276 window positions × 256 features), a slice `ws` of the weight (3072 outputs × 256
  features) and the accumulator `a` read back from the output block. It flattens `xs` to 552 × 256, contracts the
  feature axis of both operands into a zero accumulator, folds the 552 × 3072 product back to 2 × 276 × 3072 and adds
  it to `a`. Over the extended reals that is, at batch row `bb`, position `n`, output `o`:
      a[bb, n, o] + Σ_{d < 256} xs[bb, n, d] · ws[o, d].
-/
import proofs.«181422_j82832739270909_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Step

open Cert.KernelIdeal Cert.KernelIdeal.Gen

/-! ## The contraction's operand indices

The product contracts axis 1 of both operands: output index (r, o) and contraction position k read the left
operand at (r, k) and the right operand at (o, k). -/

theorem lhs_0 (i : S552x3072.Idx) (q : dot_S552x256_S3072x256_S552x3072_1_1_0_0_n_n.contr.Idx) :
    (dot_S552x256_S3072x256_S552x3072_1_1_0_0_n_n.lhsIdx i q 0).val = (i 0).val := by
  unfold DotDims.lhsIdx
  rw [dif_neg (show ¬(0 : Fin S552x256.rank) ∈ dot_S552x256_S3072x256_S552x3072_1_1_0_0_n_n.lhsBatch by decide), dif_pos (show (0 : Fin S552x256.rank) ∈ dot_S552x256_S3072x256_S552x3072_1_1_0_0_n_n.lhsNonContracting by decide)]
  rfl
theorem lhs_1 (i : S552x3072.Idx) (q : dot_S552x256_S3072x256_S552x3072_1_1_0_0_n_n.contr.Idx) :
    (dot_S552x256_S3072x256_S552x3072_1_1_0_0_n_n.lhsIdx i q 1).val = (q ⟨0, by decide⟩).val :=
  dot_S552x256_S3072x256_S552x3072_1_1_0_0_n_n.lhsIdx_val_of_single rfl i q
theorem rhs_0 (i : S552x3072.Idx) (q : dot_S552x256_S3072x256_S552x3072_1_1_0_0_n_n.contr.Idx) :
    (dot_S552x256_S3072x256_S552x3072_1_1_0_0_n_n.rhsIdx i q 0).val = (i 1).val := by
  unfold DotDims.rhsIdx
  rw [dif_neg (show ¬(0 : Fin S3072x256.rank) ∈ dot_S552x256_S3072x256_S552x3072_1_1_0_0_n_n.rhsBatch by decide), dif_pos (show (0 : Fin S3072x256.rank) ∈ dot_S552x256_S3072x256_S552x3072_1_1_0_0_n_n.rhsNonContracting by decide)]
  rfl
theorem rhs_1 (i : S552x3072.Idx) (q : dot_S552x256_S3072x256_S552x3072_1_1_0_0_n_n.contr.Idx) :
    (dot_S552x256_S3072x256_S552x3072_1_1_0_0_n_n.rhsIdx i q 1).val = (q ⟨0, by decide⟩).val :=
  dot_S552x256_S3072x256_S552x3072_1_1_0_0_n_n.rhsIdx_val_of_single rfl i q

/-- The product into a zero accumulator, at output index (r, o): the sum over the 256 features of the left operand's
    row r times the right operand's row o. -/
theorem matmul_at (l : FVec Ideal S552x256 .bf16) (w : FVec Ideal S3072x256 .bf16) (r : Fin 552) (o : Fin 3072) :
    matmul dot_S552x256_S3072x256_S552x3072_1_1_0_0_n_n none l w (constant S552x3072 .f32 0x00000000#32) (ix2 r o)
      = ∑ d : Fin 256, l (ix2 r d) * w (ix2 o d) := by
  simp only [matmul]
  rw [Ideal.matmul_constant_zero_apply, ← Equiv.sum_comp (ValueIdx.contrEquiv1 dot_S552x256_S3072x256_S552x3072_1_1_0_0_n_n 256 rfl rfl).symm]
  refine Finset.sum_congr rfl fun k _ => ?_
  have hk := ValueIdx.contrEquiv1_symm_val dot_S552x256_S3072x256_S552x3072_1_1_0_0_n_n 256 rfl rfl k
  have el : dot_S552x256_S3072x256_S552x3072_1_1_0_0_n_n.lhsIdx (ix2 r o) ((ValueIdx.contrEquiv1 dot_S552x256_S3072x256_S552x3072_1_1_0_0_n_n 256 rfl rfl).symm k) = ix2 r k := funext fun a => Fin.ext (by
    match a with
    | ⟨0, _⟩ => exact lhs_0 _ _
    | ⟨1, _⟩ => exact (lhs_1 _ _).trans hk)
  have er : dot_S552x256_S3072x256_S552x3072_1_1_0_0_n_n.rhsIdx (ix2 r o) ((ValueIdx.contrEquiv1 dot_S552x256_S3072x256_S552x3072_1_1_0_0_n_n 256 rfl rfl).symm k) = ix2 o k := funext fun a => Fin.ext (by
    match a with
    | ⟨0, _⟩ => exact rhs_0 _ _
    | ⟨1, _⟩ => exact (rhs_1 _ _).trans hk)
  rw [el, er]

/-- Row `bb · 276 + n` of the flattened 552 rows. -/
abbrev flat (bb : Fin 2) (n : Fin 276) : Fin 552 := ⟨bb.val * 276 + n.val, by have := bb.isLt; have := n.isLt; omega⟩

/-- The accumulate step at (bb, n, o): the accumulator there plus the 256-term product sum. -/
theorem step_apply (xs : Vec Ideal S2x276x256 .bf16) (ws : Vec Ideal S3072x256 .bf16) (a : Vec Ideal S2x276x3072 .f32)
    (bb : Fin 2) (n : Fin 276) (o : Fin 3072) :
    k0_pay2 (F := Ideal) xs ws a (ix3 bb n o) = a (ix3 bb n o) + ∑ d : Fin 256, xs (ix3 bb n d) * ws (ix2 o d) := by
  unfold k0_pay2
  simp only [shapeCast_self]
  rw [addf_apply]
  congr 1
  rw [shapeCast_apply _ shapeCasts_S552x3072_S2x276x3072 (ix3 bb n o) (ix2 (flat bb n) o)
    (by rw [Shape.rowMajor_val_two, Shape.rowMajor_val_three]; rfl)]
  rw [matmul_at]
  refine Finset.sum_congr rfl fun d _ => ?_
  congr 1
  exact shapeCast_apply xs shapeCasts_S2x276x256_S552x256 (ix2 (flat bb n) d) (ix3 bb n d)
    (by rw [Shape.rowMajor_val_two, Shape.rowMajor_val_three]; rfl)

end Cert.KernelIdeal.Step

end
-- ==== Proof.LibWholeStore.lean ====
/-
  A buffer that is stored whole, then loaded whole.

  When the most recent store into a buffer covered the whole buffer, a later load of the whole buffer reads that store's
  payload, whatever the earlier stores were: an accumulator that is rewritten whole and read back, any number of times.
-/
import Idealize.ShloMosaic.Lib.Pipeline.Value

noncomputable section

open Idealize.ShloMosaic

namespace Idealize.ShloMosaic.View

variable {Val : EltTy → Type} {S : Shape} {e : EltTy}

/-- A load through the whole-shape rectangle at zero offsets, after a list of stores whose LAST one (the list's head)
    went through that same rectangle, reads that store's payload `w` — however many stores `L` came before it. The
    one-store case is the library's `View.readCov_unit_zero`. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.Body.lean ====
/-
  What one grid point leaves in the output block.

  The body writes the bias, broadcast over the block, into the output block; then, twelve times, it loads the block
  back, adds the product of a 276-row slice of the input block (rows p … p+275) with a 256-column slice of the weight
  (columns 256p … 256p+255), and stores the block whole. Every store covers the block, so what the point leaves is the
  last store's payload, and each load reads the payload of the store before it: the block after the bias store and
  `p` accumulate steps is `acc p`, and the point leaves `acc 12`.

  At the ideal values `acc p` at (bb, n, o) is the bias at o plus the first p of the twelve 256-term products, by
  induction on p.
-/
import proofs.«181422_j82832739270909_1_alg».proof.Proof.Gen.KernelIdeal.Frame
import proofs.«181422_j82832739270909_1_alg».proof.Proof.Step
import proofs.«181422_j82832739270909_1_alg».proof.Proof.LibWholeStore
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic Idealize.ShloMosaic.ValueIdx

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The slices the steps load -/

/-- Rows `p … p+275` of the input block, on both batch rows and all features. -/
def rowsFrom (x0 : Vec F S2x288x256 .bf16) (p : Nat) (hp : p ≤ 12) : Vec F S2x276x256 .bf16 :=
  View.ld x0 (Rect.unit (s := S2x288x256) ![0, p, 0] S2x276x256.size (fun a => by
    match a with
    | ⟨0, _⟩ => show 0 + 2 ≤ 2; omega
    | ⟨1, _⟩ => show p + 276 ≤ 288; omega
    | ⟨2, _⟩ => show 0 + 256 ≤ 256; omega))

/-- Columns `256p … 256p+255` of the weight, on all output rows. -/
def colsFrom (x1 : Vec F S3072x3072 .bf16) (p : Nat) (hp : p < 12) : Vec F S3072x256 .bf16 :=
  View.ld x1 (Rect.unit (s := S3072x3072) ![0, 256 * p] S3072x256.size (fun a => by
    match a with
    | ⟨0, _⟩ => show 0 + 3072 ≤ 3072; omega
    | ⟨1, _⟩ => show 256 * p + 256 ≤ 3072; omega))

/-- The output block after the bias store and `p` accumulate steps. -/
def acc (x0 : Vec F S2x288x256 .bf16) (x1 : Vec F S3072x3072 .bf16) (x2 : Vec F S1x3072 .f32) :
    (p : Nat) → p ≤ 12 → Vec F S2x276x3072 .f32
  | 0, _ => k0_pay1 x2
  | p + 1, h => k0_pay2 (rowsFrom x0 p (by omega)) (colsFrom x1 p (by omega)) (acc x0 x1 x2 p (by omega))

/-! ## What the point leaves -/

/-- The point leaves the block after all twelve steps. -/
theorem out_eq (c : Dev nD) (i : grid0.Coords) (arg1 : Memref sig .tc .vmem S2x288x256 .bf16) (harg1 : arg1.IsWhole) (arg2 : Memref sig .tc .vmem S3072x3072 .bf16) (harg2 : arg2.IsWhole) (arg3 : Memref sig .tc .vmem S1x3072 .f32) (harg3 : arg3.IsWhole) (arg4 : Memref sig .tc .vmem S2x276x3072 .f32) (harg4 : arg4.IsWhole)
    (x0 : Vec F S2x288x256 .bf16) (x1 : Vec F S3072x3072 .bf16) (x2 : Vec F S1x3072 .f32) :
    out0_A_3 c i arg1 harg1 arg2 harg2 arg3 harg3 arg4 harg4 x0 x1 x2 = acc x0 x1 x2 12 (le_refl 12) := by
  unfold out0_A_3
  rw [View.read_writes_eq_canon _ _ _ (cover0_A_3 c i arg1 harg1 arg2 harg2 arg3 harg3 arg4 harg4 x0 x1 x2)]
  unfold kernelRun0_A
  dsimp only
  rw [View.canon_cons_unit_zero (S := S2x276x3072) hz3]
  sl_unfold_words
  simp only [View.readAt_eq_ld, harg1.read_unread, harg2.read_unread, harg3.read_unread,
    View.readCov_cons_unit_zero (S := S2x276x3072) _ hz3, View.ld_unit_zero (S := S1x3072) hz2]
  rfl

/-! ## The block at an index, at the ideal values -/

/-- The bias payload: the bias row, broadcast over batch rows and positions. -/
theorem bias_apply (x2 : Vec F S1x3072 .f32) (bb : Fin 2) (n : Fin 276) (o : Fin 3072) :
    k0_pay1 x2 (ix3 bb n o) = x2 (ix2 0 o) := by
  unfold k0_pay1
  simp only [shapeCast_self]
  rw [broadcastTo_apply _ broadcasts_S1x1x3072_S2x276x3072 (ix3 bb n o) (ix3 0 0 o) (fun a => by
    match a with
    | ⟨0, _⟩ => rfl
    | ⟨1, _⟩ => rfl
    | ⟨2, _⟩ => rfl)]
  exact shapeCast_apply x2 shapeCasts_S1x3072_S1x1x3072 (ix3 0 0 o) (ix2 0 o)
    (by rw [Shape.rowMajor_val_two, Shape.rowMajor_val_three]; rfl)

/-- Row `n` of the slice starting at row `p` is row `p + n` of the block. -/
theorem rowsFrom_apply (x0 : Vec F S2x288x256 .bf16) (p : Nat) (hp : p ≤ 12) (bb : Fin 2) (n : Fin 276) (d : Fin 256) :
    rowsFrom x0 p hp (ix3 bb n d) = x0 (ix3 bb ⟨p + n.val, by have := n.isLt; omega⟩ d) := by
  unfold rowsFrom
  show x0 _ = x0 _
  congr 1
  funext a
  apply Fin.ext
  match a with
  | ⟨0, _⟩ => show 0 + 1 * bb.val = bb.val; omega
  | ⟨1, _⟩ => show p + 1 * n.val = p + n.val; omega
  | ⟨2, _⟩ => show 0 + 1 * d.val = d.val; omega

/-- Column `d` of the slice starting at column `256p` is column `256p + d` of the weight. -/
theorem colsFrom_apply (x1 : Vec F S3072x3072 .bf16) (p : Nat) (hp : p < 12) (o : Fin 3072) (d : Fin 256) :
    colsFrom x1 p hp (ix2 o d) = x1 (ix2 o ⟨256 * p + d.val, by have := d.isLt; omega⟩) := by
  unfold colsFrom
  show x1 _ = x1 _
  congr 1
  funext a
  apply Fin.ext
  match a with
  | ⟨0, _⟩ => show 0 + 1 * o.val = o.val; omega
  | ⟨1, _⟩ => show 256 * p + 1 * d.val = 256 * p + d.val; omega

/-- The product of window position `q`: over the 256 features, the block's row `q + n` times the weight's columns
    `256q …` at output `o`. -/
def prod (x0 : Vec Ideal S2x288x256 .bf16) (x1 : Vec Ideal S3072x3072 .bf16) (bb : Fin 2) (n : Fin 276) (o : Fin 3072)
    (q : Fin 12) : EReal :=
  ∑ d : Fin 256, x0 (ix3 bb ⟨q.val + n.val, by have := n.isLt; have := q.isLt; omega⟩ d)
    * x1 (ix2 o ⟨256 * q.val + d.val, by have := d.isLt; have := q.isLt; omega⟩)

/-- After `p` steps the block holds, at (bb, n, o), the bias at `o` plus the products of window positions `0 … p−1`. -/
theorem acc_apply (x0 : Vec Ideal S2x288x256 .bf16) (x1 : Vec Ideal S3072x3072 .bf16) (x2 : Vec Ideal S1x3072 .f32)
    (bb : Fin 2) (n : Fin 276) (o : Fin 3072) :
    ∀ (p : Nat) (hp : p ≤ 12), acc x0 x1 x2 p hp (ix3 bb n o)
      = x2 (ix2 0 o) + ∑ q : Fin p, prod x0 x1 bb n o (Fin.castLE hp q)
  | 0, _ => by
    rw [acc, bias_apply]
    simp only [Finset.univ_eq_empty, Finset.sum_empty, add_zero]
  | p + 1, hp => by
    rw [acc, Step.step_apply, acc_apply x0 x1 x2 bb n o p (by omega), add_assoc,
      Fin.sum_univ_castSucc (fun q : Fin (p + 1) => prod x0 x1 bb n o (Fin.castLE hp q))]
    refine congrArg (x2 (ix2 0 o) + ·) (congrArg₂ (· + ·) (Finset.sum_congr rfl fun q _ => rfl) ?_)
    unfold prod
    refine Finset.sum_congr rfl fun d _ => ?_
    rw [rowsFrom_apply, colsFrom_apply]
    rfl

/-- What the point leaves at (bb, n, o): the bias plus all twelve products. -/
theorem out_apply (c : Dev nD) (i : grid0.Coords) (arg1 : Memref sig .tc .vmem S2x288x256 .bf16) (harg1 : arg1.IsWhole) (arg2 : Memref sig .tc .vmem S3072x3072 .bf16) (harg2 : arg2.IsWhole) (arg3 : Memref sig .tc .vmem S1x3072 .f32) (harg3 : arg3.IsWhole) (arg4 : Memref sig .tc .vmem S2x276x3072 .f32) (harg4 : arg4.IsWhole)
    (x0 : Vec Ideal S2x288x256 .bf16) (x1 : Vec Ideal S3072x3072 .bf16) (x2 : Vec Ideal S1x3072 .f32)
    (bb : Fin 2) (n : Fin 276) (o : Fin 3072) :
    out0_A_3 (F := Ideal) c i arg1 harg1 arg2 harg2 arg3 harg3 arg4 harg4 x0 x1 x2 (ix3 bb n o)
      = x2 (ix2 0 o) + ∑ q : Fin 12, prod x0 x1 bb n o q := by
  rw [out_eq, acc_apply x0 x1 x2 bb n o 12 (le_refl 12)]
  rfl

end Cert.KernelIdeal.Body

end
-- ==== Proof.Window.lean ====
/-
  The sliding-window linear layer, as one function of the three argument arrays.

  `inp` is 64 sequences of 288 steps of 256 features; a window is 12 consecutive steps, 3072 numbers; `W` maps a
  window to 3072 outputs and `b` is the bias. For sequence `bt`, window start `n` (276 of them) and output `o`:

      lin[bt, n, o] = b[o] + Σ_{q < 12} Σ_{d < 256} inp[bt, n + q, d] · W[o, 256 q + d].

  The window's 3072 positions are the pairs (q, d) in row-major order, which is the one re-indexing law here: a sum
  over k < 3072 is the double sum over q < 12 and d < 256 of the term at k = 256 q + d. It holds in any commutative
  additive monoid; on the extended reals no finiteness is needed for it.
-/
import Idealize.ShloMosaic.Lib.ValueIdx
import Mathlib.Algebra.BigOperators.Fin
import Mathlib.Logic.Equiv.Fin.Basic

noncomputable section

open Idealize.ShloMosaic Idealize.ShloMosaic.ValueIdx

namespace Cert.Window

/-- The layer at sequence `bt`, window start `n`, output `o`. -/
def lin (inp : (⟨3, ![64, 288, 256]⟩ : Shape).Idx → EReal) (W : (⟨2, ![3072, 3072]⟩ : Shape).Idx → EReal)
    (b : (⟨1, ![3072]⟩ : Shape).Idx → EReal) (bt : Fin 64) (n : Fin 276) (o : Fin 3072) : EReal :=
  b (ix1 o) + ∑ q : Fin 12, ∑ d : Fin 256,
    inp (ix3 bt ⟨q.val + n.val, by have := n.isLt; have := q.isLt; omega⟩ d)
      * W (ix2 o ⟨256 * q.val + d.val, by have := d.isLt; have := q.isLt; omega⟩)

/-- The whole result before its last reshape: 64 × 276 × 3072. -/
def G3 (inp : (⟨3, ![64, 288, 256]⟩ : Shape).Idx → EReal) (W : (⟨2, ![3072, 3072]⟩ : Shape).Idx → EReal)
    (b : (⟨1, ![3072]⟩ : Shape).Idx → EReal) : (⟨3, ![64, 276, 3072]⟩ : Shape).Idx → EReal :=
  fun j => lin inp W b ⟨(j 0).val, (j 0).isLt⟩ ⟨(j 1).val, (j 1).isLt⟩ ⟨(j 2).val, (j 2).isLt⟩

theorem G3_apply (inp : (⟨3, ![64, 288, 256]⟩ : Shape).Idx → EReal) (W : (⟨2, ![3072, 3072]⟩ : Shape).Idx → EReal)
    (b : (⟨1, ![3072]⟩ : Shape).Idx → EReal) (bt : Fin 64) (n : Fin 276) (o : Fin 3072) :
    G3 inp W b (ix3 bt n o) = lin inp W b bt n o := rfl

/-- A sum over the 3072 window positions is the double sum over the 12 steps and the 256 features. -/
theorem sum_window {M : Type*} [AddCommMonoid M] (g : Fin 3072 → M) :
    ∑ k, g k = ∑ q : Fin 12, ∑ d : Fin 256, g ⟨256 * q.val + d.val, by have := d.isLt; have := q.isLt; omega⟩ := by
  have e : ∑ k, g k = ∑ x : Fin 12 × Fin 256, g (finProdFinEquiv x) :=
    (Equiv.sum_comp (finProdFinEquiv : Fin 12 × Fin 256 ≃ Fin (12 * 256)) g).symm
  rw [e, Fintype.sum_prod_type]
  refine Finset.sum_congr rfl fun q _ => Finset.sum_congr rfl fun d _ => congrArg g (Fin.ext ?_)
  show d.val + 256 * q.val = 256 * q.val + d.val
  omega

end Cert.Window

end
-- ==== Proof.Layer.lean ====
/-
  From the grid points' blocks to the result array, and the kernel's run read as a value.

  The grid has 32 points; point `t` works on sequences `2t` and `2t + 1`: it is handed those two sequences of the
  (narrowed) input, the whole (narrowed) weight and the bias as a 1 × 3072 row, and writes back rows `2t, 2t + 1`
  of the 64 × 276 × 3072 result. Narrowing to bf16 is the identity at the ideal values, and the bias row is the bias
  reshaped, so what the point writes is the sliding-window layer `Window.G3` of the three ARGUMENT arrays, restricted
  to the point's two sequences. The 32 blocks tile the array, so after the run the array is `G3` of the arguments, and
  @main's last line reshapes it to 64 × 276 × 12 × 256.
-/
import proofs.«181422_j82832739270909_1_alg».proof.Proof.Gen.KernelIdeal.Frame
import proofs.«181422_j82832739270909_1_alg».proof.Proof.Body
import proofs.«181422_j82832739270909_1_alg».proof.Proof.Window
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.Layer

open Cert.KernelIdeal Cert.KernelIdeal.Gen Cert.Window

variable (m : (ℓ : Loc nD τ sig) → Buf (Elt Ideal) ℓ) (ρ : Dev nD → PrngReg)

/-! ## The arrays the region finds -/

/-- The input as the region finds it: the argument narrowed to bf16. -/
theorem V_inp (c : Dev nD) : (V m c main_v0 : FVec Ideal S64x288x256 .bf16)
    = (truncf .bf16 (m ((c : Thread nD τ).loc main_arg0) : FVec Ideal S64x288x256 .f32) bitsLt_bf16_f32 : FVec Ideal S64x288x256 .bf16) := by
  show StableHlo.after hostOps0 (fun b => m (c, b)) (Proc.devRef .tc main_v0) = _
  after_results

/-- The weight as the region finds it: the argument narrowed to bf16. -/
theorem V_wgt (c : Dev nD) : (V m c main_v1 : FVec Ideal S3072x3072 .bf16)
    = (truncf .bf16 (m ((c : Thread nD τ).loc main_arg1) : FVec Ideal S3072x3072 .f32) bitsLt_bf16_f32 : FVec Ideal S3072x3072 .bf16) := by
  show StableHlo.after hostOps0 (fun b => m (c, b)) (Proc.devRef .tc main_v1) = _
  after_results

/-- The bias as the region finds it: the argument reshaped to one row. -/
theorem V_bias (c : Dev nD) : V m c main_v2 = shapeCast S1x3072 (m ((c : Thread nD τ).loc main_arg2)) shapeCasts_S3072_S1x3072 := by
  show StableHlo.after hostOps0 (fun b => m (c, b)) (Proc.devRef .tc main_v2) = _
  after_results
  rfl

/-! ## The windows' blocks -/

/-- The printed index maps over the grid: the input's and the result's block index is the point on the sequence axis
    and zero elsewhere; the weight's and the bias's never move. -/
theorem idx_facts : ∀ t : Fin cfg0.N, win0_0.index t (0 : Fin 3) = t.val ∧ win0_0.index t (1 : Fin 3) = 0
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Sequence `2t + bb`: batch row `bb` of point `t`'s block. -/
abbrev seq (t : Fin cfg0.N) (bb : Fin 2) : Fin 64 :=
  ⟨2 * t.val + bb.val, by have h : cfg0.N = 32 := N_0; have := t.isLt; have := bb.isLt; omega⟩

/-- The input block at point `t`: sequences `2t, 2t + 1` of the input argument. -/
theorem inp_blk (c : Dev nD) (t : Fin cfg0.N) (bb : Fin 2) (r : Fin 288) (d : Fin 256) :
    (iblk m c 0 t : Vec Ideal S2x288x256 .bf16) (ix3 bb r d) = m ((c : Thread nD τ).loc main_arg0) (ix3 (seq t bb) r d) := by
  obtain ⟨e0, e1, e2, -⟩ := idx_facts t
  unfold iblk
  rw [View.read_apply]
  show V m c main_v0 _ = _
  rw [V_inp]
  show m ((c : Thread nD τ).loc main_arg0) _ = m ((c : Thread nD τ).loc main_arg0) _
  congr 1
  funext a
  apply Fin.ext
  match a with
  | ⟨0, _⟩ => show win0_0.index t (0 : Fin 3) * 2 + 1 * bb.val = 2 * t.val + bb.val; rw [e0]; omega
  | ⟨1, _⟩ => show win0_0.index t (1 : Fin 3) * 288 + 1 * r.val = r.val; rw [e1]; omega
  | ⟨2, _⟩ => show win0_0.index t (2 : Fin 3) * 256 + 1 * d.val = d.val; rw [e2]; omega

/-- The weight block at every point: the weight argument. -/
theorem wgt_blk (c : Dev nD) (t : Fin cfg0.N) (o : Fin 3072) (k : Fin 3072) :
    (iblk m c 1 t : Vec Ideal S3072x3072 .bf16) (ix2 o k) = m ((c : Thread nD τ).loc main_arg1) (ix2 o k) := by
  obtain ⟨-, -, -, e0, e1, -⟩ := idx_facts t
  unfold iblk
  rw [View.read_apply]
  show V m c main_v1 _ = _
  rw [V_wgt]
  show m ((c : Thread nD τ).loc main_arg1) _ = m ((c : Thread nD τ).loc main_arg1) _
  congr 1
  funext a
  apply Fin.ext
  match a with
  | ⟨0, _⟩ => show win0_1.index t (0 : Fin 2) * 3072 + 1 * o.val = o.val; rw [e0]; omega
  | ⟨1, _⟩ => show win0_1.index t (1 : Fin 2) * 3072 + 1 * k.val = k.val; rw [e1]; omega

/-- The bias block at every point: the bias argument as one row. -/
theorem bias_blk (c : Dev nD) (t : Fin cfg0.N) (o : Fin 3072) :
    (iblk m c 2 t : Vec Ideal S1x3072 .f32) (ix2 0 o) = m ((c : Thread nD τ).loc main_arg2) (ix1 o) := by
  obtain ⟨-, -, -, -, -, e0, e1, -⟩ := idx_facts t
  unfold iblk
  rw [View.read_apply]
  show V m c main_v2 _ = _
  rw [V_bias]
  refine shapeCast_apply _ shapeCasts_S3072_S1x3072 _ (ix1 o) ?_
  rw [Shape.rowMajor_val_one, Shape.rowMajor_val_two]
  show o.val = (win0_2.index t (0 : Fin 2) * 1 + 1 * 0) * 3072 + (win0_2.index t (1 : Fin 2) * 3072 + 1 * o.val)
  rw [e0, e1]; omega

/-! ## What a point writes back, and the array after the run -/

/-- Index (bb, n, o) of point `t`'s result block is index (2t + bb, n, o) of the result array. -/
theorem out_emb (t : Fin cfg0.N) (bb : Fin 2) (n : Fin 276) (o : Fin 3072) :
    ((cfg0.win 3).blk t).view.emb (ix3 bb n o) = ix3 (seq t bb) n o := by
  obtain ⟨-, -, -, -, -, -, -, e0, e1, e2⟩ := idx_facts t
  funext a
  apply Fin.ext
  match a with
  | ⟨0, _⟩ => show win0_3.index t (0 : Fin 3) * 2 + 1 * bb.val = 2 * t.val + bb.val; rw [e0]; omega
  | ⟨1, _⟩ => show win0_3.index t (1 : Fin 3) * 276 + 1 * n.val = n.val; rw [e1]; omega
  | ⟨2, _⟩ => show win0_3.index t (2 : Fin 3) * 3072 + 1 * o.val = o.val; rw [e2]; omega

/-- The layer of core `c`'s three argument arrays. -/
abbrev result (c : Dev nD) : S64x276x3072.Idx → EReal :=
  G3 (m ((c : Thread nD τ).loc main_arg0)) (m ((c : Thread nD τ).loc main_arg1)) (m ((c : Thread nD τ).loc main_arg2))

/-- WHAT POINT `t` WRITES BACK is block `t` of the layer of the argument arrays: at (bb, n, o) the body leaves the bias
    row at `o` plus the twelve products of its input block's rows `q + n` with the weight's columns `256 q …`, and
    those blocks are sequences `2t + bb` of the input, the weight and the bias. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold outsAt0
  funext j
  obtain ⟨bb, n, o, rfl⟩ : ∃ (bb : Fin 2) (n : Fin 276) (o : Fin 3072), j = ix3 bb n o := ⟨j 0, j 1, j 2, eq_ix3 j⟩
  refine (Body.out_apply c (grid0.coords t) (ms0_0 t) (hs0_0 t) (ms0_1 t) (hs0_1 t) (ms0_2 t) (hs0_2 t) (ms0_3 t) (hs0_3 t)
    (iblk m c 0 t) (iblk m c 1 t) (iblk m c 2 t) bb n o).trans ?_
  rw [View.read_apply]
  show _ = result m c (((cfg0.win 3).blk t).view.emb (ix3 bb n o))
  rw [out_emb]
  show _ = lin _ _ _ (seq t bb) n o
  unfold lin
  refine congrArg₂ (· + ·) (bias_blk m c t o) (Finset.sum_congr rfl fun q _ => ?_)
  unfold Body.prod
  exact Finset.sum_congr rfl fun d _ => congrArg₂ (· * ·) (inp_blk m c t bb _ d) (wgt_blk m c t o _)

/-- An index of the result array is in point `t`'s block iff each coordinate is in the block's range on its axis. -/
theorem mem_blk (t : Fin cfg0.N) (i : S64x276x3072.Idx) :
    i ∈ ((cfg0.win 3).blk t).view.set ↔ ∀ a : Fin 3, win0_3.index t a * S2x276x3072.size a ≤ (i a).val ∧ (i a).val < win0_3.index t a * S2x276x3072.size a + S2x276x3072.size a := by
  show i ∈ ((View.whole main_v3).slice (win0_3.rect t)).set ↔ _
  rw [View.set_slice_whole, Rect.mem_set_unit]
  exact Iff.rfl

/-- Every index of the result array is in the block of the point that owns its sequence, `t = i₀ / 2`. -/
theorem cover (i : S64x276x3072.Idx) :
    ∃ t : Fin cfg0.N, (cfg0.win 3).flush t = true ∧ i ∈ ((cfg0.win 3).blk t).view.set := by
  have hN : cfg0.N = 32 := N_0
  have h0 : (i 0).val < 64 := (i 0).isLt
  have h1 : (i 1).val < 276 := (i 1).isLt
  have h2 : (i 2).val < 3072 := (i 2).isLt
  obtain ⟨t, ht⟩ : ∃ t : Fin cfg0.N, t.val = (i 0).val / 2 := ⟨⟨(i 0).val / 2, by omega⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; rw [e0]; omega
  | ⟨1, _⟩ => show win0_3.index t (1 : Fin 3) * 276 ≤ (i 1).val ∧ (i 1).val < win0_3.index t (1 : Fin 3) * 276 + 276; rw [e1]; omega
  | ⟨2, _⟩ => show win0_3.index t (2 : Fin 3) * 3072 ≤ (i 2).val ∧ (i 2).val < win0_3.index t (2 : Fin 3) * 3072 + 3072; rw [e2]; omega

/-- THE ARRAY after the run: the layer of the argument arrays. -/
theorem final (c : Dev nD) : (dats m 0 c).arrAt 3 cfg0.N = result m c :=
  (dats m 0 c).arrAt_eq_of_cover 3 (result m c) (fun t _ => flushed_eq m c t) cover

/-! ## The run, read -/

/-- @main's last line reshapes the array to 64 × 276 × 12 × 256. -/
theorem tail (c : Dev nD) : Pipeline.afterTail₀ cfgs (dats m) 0 (V0 m) [hostOps1] c main_v4
    = shapeCast S64x276x12x256 (result m c) shapeCasts_S64x276x3072_S64x276x12x256 := by
  unfold Pipeline.afterTail₀
  show StableHlo.after hostOps1 _ (Proc.devRef .tc main_v4) = _
  after_results
  exact congrArg (fun x => shapeCast S64x276x12x256 x shapeCasts_S64x276x3072_S64x276x12x256)
    ((Pipeline.withArrays_arr spec0 launch0.win.arr_inj c _ _ 3).trans (final m c))

/-- Every weakly fair execution of the kernel's @main at the ideal values terminates with the result at the reshaped
    layer of the argument arrays, and the arguments unchanged. -/
theorem run : θ_run defs (onTc (τ := τ) (main (F := Ideal))) ⟨m, fun _ => 0, ρ⟩ fun r => ∀ c : Dev nD,
      r.2.mem ((c : Thread nD τ).loc main_v4) = shapeCast S64x276x12x256 (result m c) shapeCasts_S64x276x3072_S64x276x12x256
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Layer

end
-- ==== Proof.RefValue.lean ====
/-
  The reference read as the sliding-window layer.

  The reference builds the table of step indices `n + q` (window start plus position in the window, 276 × 12 words),
  gathers the input's steps along axis 1 by it into 64 × 276 × 12 × 256, flattens each window to 3072 numbers,
  contracts them with the weight's rows and adds the bias. The table's entries are below 288, so the gather neither
  wraps a negative index nor clamps, and the flattened window position `k` is the pair (k / 256, k mod 256). Hence
  at (bt, n, o) the reference is Σ_{k < 3072} inp[bt, n + k / 256, k mod 256] · W[o, k] + b[o], which the split of the
  sum over the 12 steps and 256 features turns into `Window.lin`.
-/
import proofs.«181422_j82832739270909_1_alg».proof.Proof.Gen.ReferenceIdeal.Read
import proofs.«181422_j82832739270909_1_alg».proof.Proof.Window
import Idealize.ShloMosaic.Lib.StableHlo.Predicate

noncomputable section

open Idealize.ShloMosaic Idealize.ShloMosaic.TcCoe Idealize.SL.Sem Idealize.ShloMosaic.ValueIdx
open Idealize.ShloMosaic.StableHlo.Predicate

namespace Cert.ReferenceIdeal.RefValue

open Cert.ReferenceIdeal Cert.ReferenceIdeal.Gen Cert.ReferenceIdeal.Read Cert.Window

variable {F : FTy → Type} [FloatOps F]

/-! ## The table of step indices -/

/-- The table at (n, q): the word of `n + q`; it is not negative, so jnp's wrap of negative indices keeps it. -/
theorem table_apply (n : Fin 276) (q : Fin 12) :
    val_main_v12 (F := F) (ix3 n q (0 : Fin 1)) = BitVec.ofNat 32 (n.val + q.val) := by
  simp only [val_main_v12_apply, val_main_v11_apply, val_main_v8_apply, val_main_v10_apply, val_main_v6_apply,
    val_main_v4_apply, val_main_v5_apply, val_main_v1_apply, val_main_v3_apply, val_main_v0_apply, val_main_v2_apply,
    val_main_v7_apply, val_main_v9_apply, val_main_c_apply, val_main_c_0_apply]
  show Scalar.select (IntOp.cmpi .slt (IntOp.addi (BitVec.ofNat 32 n.val) (BitVec.ofNat 32 q.val)) 0#32)
      (IntOp.addi (IntOp.addi (BitVec.ofNat 32 n.val) (BitVec.ofNat 32 q.val)) 288#32)
      (IntOp.addi (BitVec.ofNat 32 n.val) (BitVec.ofNat 32 q.val)) = _
  have hs : IntOp.addi (BitVec.ofNat 32 n.val) (BitVec.ofNat 32 q.val) = BitVec.ofNat 32 (n.val + q.val) := by
    unfold IntOp.addi
    exact (BitVec.ofNat_add ..).symm
  rw [hs]
  have hn := n.isLt
  have hq := q.isLt
  have hc : ¬ IntOp.cmpi .slt (BitVec.ofNat 32 (n.val + q.val)) 0#32 = 1#1 := by
    unfold IntOp.cmpi
    rw [show (0#32 : BitVec 32) = BitVec.ofNat 32 0 from rfl, slt_ofNat_iff _ _ (by omega) (by omega)]
    omega
  exact if_neg hc

/-! ## The gather -/

/-- The gather along the step axis at (bt, n, q, d): the input at step `r`, when the table's entry at (n, q) read
    signed is `r` — no clamp, `r` being a step of the input — and at the same sequence and feature. -/
theorem gather_apply (x0 : (⟨S64x288x256, .f32⟩ : BufTy).Contents (Elt F)) (idx : IVec S276x12x1 32)
    (bt : Fin 64) (n : Fin 276) (q : Fin 12) (d : Fin 256) (r : Fin 288)
    (hr : (idx (ix3 n q (0 : Fin 1))).toInt.toNat = r.val) :
    Host.gather gather_S64x288x256_S276x12x1_S64x276x12x256_03_1_n_n_1_2_641256 x0 idx (ix4 bt n q d) = x0 (ix3 bt r d) := by
  unfold Host.gather
  congr 1
  funext a
  apply Fin.ext
  match a with
  | ⟨0, _⟩ =>
    show gather_S64x288x256_S276x12x1_S64x276x12x256_03_1_n_n_1_2_641256.start (ix4 bt n q d) idx 0 + gather_S64x288x256_S276x12x1_S64x276x12x256_03_1_n_n_1_2_641256.batchCoord (ix4 bt n q d) 0 + gather_S64x288x256_S276x12x1_S64x276x12x256_03_1_n_n_1_2_641256.offCoord (ix4 bt n q d) 0 = bt.val
    rw [GatherDims.batchCoord_eq_zero _ _ _ List.not_mem_nil]
    have hs : gather_S64x288x256_S276x12x1_S64x276x12x256_03_1_n_n_1_2_641256.start (ix4 bt n q d) idx 0 = 0 := by
      unfold GatherDims.start
      exact dif_neg (by decide)
    have ho : gather_S64x288x256_S276x12x1_S64x276x12x256_03_1_n_n_1_2_641256.offCoord (ix4 bt n q d) 0 = bt.val := by
      unfold GatherDims.offCoord
      rw [dif_pos (by decide)]
      rfl
    rw [hs, ho]
    omega
  | ⟨1, _⟩ =>
    show gather_S64x288x256_S276x12x1_S64x276x12x256_03_1_n_n_1_2_641256.start (ix4 bt n q d) idx 1 + gather_S64x288x256_S276x12x1_S64x276x12x256_03_1_n_n_1_2_641256.batchCoord (ix4 bt n q d) 1 + gather_S64x288x256_S276x12x1_S64x276x12x256_03_1_n_n_1_2_641256.offCoord (ix4 bt n q d) 1 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin S64x288x256.rank) ∈ gather_S64x288x256_S276x12x1_S64x276x12x256_03_1_n_n_1_2_641256.startIndexMap from List.mem_singleton.mpr rfl)]
    have hsi : gather_S64x288x256_S276x12x1_S64x276x12x256_03_1_n_n_1_2_641256.siIdx (ix4 bt n q d) ⟨List.idxOf (1 : Fin S64x288x256.rank) gather_S64x288x256_S276x12x1_S64x276x12x256_03_1_n_n_1_2_641256.startIndexMap,
        List.idxOf_lt_length_iff.2 (List.mem_singleton.mpr rfl)⟩ = ix3 n q (0 : Fin 1) := by
      funext b; refine Fin.ext ?_
      match b with
      | ⟨0, _⟩ => rfl
      | ⟨1, _⟩ => rfl
      | ⟨2, _⟩ => rfl
    rw [hsi, hr]
    show min r.val (288 - 1) = r.val
    have := r.isLt
    omega
  | ⟨2, _⟩ =>
    show gather_S64x288x256_S276x12x1_S64x276x12x256_03_1_n_n_1_2_641256.start (ix4 bt n q d) idx 2 + gather_S64x288x256_S276x12x1_S64x276x12x256_03_1_n_n_1_2_641256.batchCoord (ix4 bt n q d) 2 + gather_S64x288x256_S276x12x1_S64x276x12x256_03_1_n_n_1_2_641256.offCoord (ix4 bt n q d) 2 = d.val
    rw [GatherDims.batchCoord_eq_zero _ _ _ List.not_mem_nil]
    have hs : gather_S64x288x256_S276x12x1_S64x276x12x256_03_1_n_n_1_2_641256.start (ix4 bt n q d) idx 2 = 0 := by
      unfold GatherDims.start
      exact dif_neg (by decide)
    have ho : gather_S64x288x256_S276x12x1_S64x276x12x256_03_1_n_n_1_2_641256.offCoord (ix4 bt n q d) 2 = d.val := by
      unfold GatherDims.offCoord
      rw [dif_pos (by decide)]
      rfl
    rw [hs, ho]
    omega

/-! ## The reference before its last reshape -/

/-- The reference's 64 × 276 × 3072 stage is the layer of its three arguments. -/
theorem stage_eq (x0 : (⟨S64x288x256, .f32⟩ : BufTy).Contents (Elt Ideal)) (x1 : (⟨S3072x3072, .f32⟩ : BufTy).Contents (Elt Ideal))
    (x2 : (⟨S3072, .f32⟩ : BufTy).Contents (Elt Ideal)) :
    val_main_v18 (F := Ideal) x0 x1 x2 = G3 x0 x1 x2 := by
  funext j
  obtain ⟨bt, n, o, rfl⟩ : ∃ (bt : Fin 64) (n : Fin 276) (o : Fin 3072), j = ix3 bt n o := ⟨j 0, j 1, j 2, eq_ix3 j⟩
  rw [G3_apply, val_main_v18_apply, val_main_v15_apply, val_main_v17_apply, val_main_v16_apply]
  unfold lin
  show (∑ k : Fin 3072, val_main_v14 (F := Ideal) x0 (lidx_main_v15 (ix3 bt n o) k) * x1 (ridx_main_v15 (ix3 bt n o) k))
    + x2 (idx_main_v16 (idx_main_v17 (ix3 bt n o))) = _
  rw [add_comm, sum_window]
  have hn := n.isLt
  refine congrArg₂ (· + ·) (congrArg x2 (funext fun a => by match a with | ⟨0, _⟩ => rfl))
    (Finset.sum_congr rfl fun q _ => Finset.sum_congr rfl fun d _ => ?_)
  have hq := q.isLt
  have hd := d.isLt
  refine congrArg₂ (· * ·) ?_ (congrArg x1 (funext fun a => by
    match a with
    | ⟨0, _⟩ => rfl
    | ⟨1, _⟩ => rfl))
  rw [val_main_v14_apply]
  have e : idx_main_v14 (lidx_main_v15 (ix3 bt n o) ⟨256 * q.val + d.val, by omega⟩) = ix4 bt n q d :=
    funext fun a => Fin.ext (by
      have hb := bt.isLt
      match a with
      | ⟨0, _⟩ => show ((bt.val * 276 + n.val) * 3072 + (256 * q.val + d.val)) / 847872 = bt.val; omega
      | ⟨1, _⟩ => show ((bt.val * 276 + n.val) * 3072 + (256 * q.val + d.val)) / 3072 % 276 = n.val; omega
      | ⟨2, _⟩ => show ((bt.val * 276 + n.val) * 3072 + (256 * q.val + d.val)) / 256 % 12 = q.val; omega
      | ⟨3, _⟩ => show ((bt.val * 276 + n.val) * 3072 + (256 * q.val + d.val)) % 256 = d.val; omega)
  rw [e]
  unfold val_main_v13
  exact gather_apply x0 _ bt n q d ⟨q.val + n.val, by omega⟩ (by
    rw [table_apply, toInt_ofNat_small _ (by omega), Int.toNat_natCast]
    show n.val + q.val = q.val + n.val
    omega)

end Cert.ReferenceIdeal.RefValue

end
-- ==== Proof.lean ====
/-
  The sliding-window linear layer: the kernel against its reference.

  Both programs compute, for 64 sequences of 288 steps of 256 features, a weight of 3072 × 3072 and a bias of 3072,

      out[bt, n, o] = b[o] + Σ_{q < 12} Σ_{d < 256} inp[bt, n + q, d] · W[o, 256 q + d]      (276 window starts n),

  reshaped to 64 × 276 × 12 × 256.

  The kernel runs 32 grid points of two sequences each. A point stores the bias into its output block and then, for
  each of the 12 window positions, reads the block back and adds the product of 276 rows of its input block, shifted
  by the position, with 256 columns of the weight: a left-nested sum, bias first. It narrows the input and the weight
  to bf16 first, which is the identity at the ideal values.

  The reference builds the table of step indices n + q, gathers the windows, flattens each to 3072 numbers and takes one
  product with the weight's rows, adding the bias last.

  Over the extended reals the two are the same number: the 3072 window positions are the pairs (q, d) in row-major
  order, and the rest is the order and grouping of one finite sum, for which addition's commutativity and associativity
  suffice. So the precondition (finite inputs) is never opened. The kernel's idealization rewrote nothing.
-/
import proofs.«181422_j82832739270909_1_alg».proof.Defs
import proofs.«181422_j82832739270909_1_alg».proof.Proof.Gen.Kernel
import proofs.«181422_j82832739270909_1_alg».proof.Proof.Gen.Kernel.Skeleton
import proofs.«181422_j82832739270909_1_alg».proof.Proof.Gen.Kernel.Launch
import proofs.«181422_j82832739270909_1_alg».proof.Proof.Gen.Kernel.Points
import proofs.«181422_j82832739270909_1_alg».proof.Proof.Gen.Kernel.Frame
import proofs.«181422_j82832739270909_1_alg».proof.Proof.Gen.KernelIdeal
import proofs.«181422_j82832739270909_1_alg».proof.Proof.Gen.KernelIdeal.Skeleton
import proofs.«181422_j82832739270909_1_alg».proof.Proof.Gen.KernelIdeal.Launch
import proofs.«181422_j82832739270909_1_alg».proof.Proof.Gen.KernelIdeal.Points
import proofs.«181422_j82832739270909_1_alg».proof.Proof.Gen.KernelIdeal.Frame
import proofs.«181422_j82832739270909_1_alg».proof.Proof.Gen.ReferenceIdeal
import proofs.«181422_j82832739270909_1_alg».proof.Proof.Gen.ReferenceIdeal.Run
import proofs.«181422_j82832739270909_1_alg».proof.Proof.Gen.ReferenceIdeal.Read
import proofs.«181422_j82832739270909_1_alg».proof.Proof.Gen.Pre_finite_inputs
import proofs.«181422_j82832739270909_1_alg».proof.Proof.Layer
import proofs.«181422_j82832739270909_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference is a straight line of host operations: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The kernel ends at the reshaped layer of its arguments; the reference's last reshape is applied to a stage that is
    the layer of ITS arguments; the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq]
  unfold Cert.ReferenceIdeal.Read.val_main_v19
  rw [Cert.ReferenceIdeal.RefValue.stage_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
